-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4x512x512 : Shape := ⟨4, ![16, 4, 512, 512]⟩
abbrev S_ : Shape := ⟨0, ![]⟩

class Facts : Prop where
  bcast_S_S16x4x512x512 : S_.BroadcastsInDim S16x4x512x512 (![] : Fin 0 → Fin S16x4x512x512.rank)
  reducesTo_S16x4x512x512_S_d0_1_2_3 : S16x4x512x512.ReducesTo [0, 1, 2, 3] S_
  h_S_ : 0 < S_.numel

variable [Facts]

def fn {F : FTy → Type} [FloatOps F] (main_arg0 : FVec F S16x4x512x512 .f32) : IVec S_ 1 :=
  let main_v0 : FVec F S16x4x512x512 .f32 := Host.absf main_arg0
  let main_cst : FVec F S_ .f32 := constant S_ .f32 0x7F800000#32
  let main_v1 : FVec F S16x4x512x512 .f32 := broadcastInDim S16x4x512x512 ![] bcast_S_S16x4x512x512 main_cst
  let main_v2 : IVec S16x4x512x512 1 := cmpf .olt main_v0 main_v1
  let main_c : IVec S_ 1 := constantI S_ 1 1#1
  let main_v3 : IVec S_ 1 := (fun x v => Host.reduce IntOp.andi x v reducesTo_S16x4x512x512_S_d0_1_2_3 h_S_) main_v2 main_c
  main_v3
-- ==== Kernel.lean ====
abbrev S16x4x512x512 : Shape := ⟨4, ![16, 4, 512, 512]⟩
abbrev S_ : Shape := ⟨0, ![]⟩
abbrev S16x4x514x514 : Shape := ⟨4, ![16, 4, 514, 514]⟩
abbrev S16x3x512x512 : Shape := ⟨4, ![16, 3, 512, 512]⟩
abbrev S1x4x514x514 : Shape := ⟨4, ![1, 4, 514, 514]⟩
abbrev S1x3x512x512 : Shape := ⟨4, ![1, 3, 512, 512]⟩
abbrev S4x514x514 : Shape := ⟨3, ![4, 514, 514]⟩
abbrev S3x514x514 : Shape := ⟨3, ![3, 514, 514]⟩
abbrev S1x514x514 : Shape := ⟨3, ![1, 514, 514]⟩
abbrev S3x512x512 : Shape := ⟨3, ![3, 512, 512]⟩
abbrev S1x512x512 : Shape := ⟨3, ![1, 512, 512]⟩

abbrev nBuf : Space → Nat
  | .hbm => 5
  | .vmem => 4
  | .smem => 0
  | _ => 0

abbrev bufTy : (tb : Table) → Fin (tcTables nBuf tb) → BufTy
  | .hbm, ⟨0, _⟩ => ⟨S16x4x512x512, .f32⟩
  | .hbm, ⟨1, _⟩ => ⟨S_, .i32⟩
  | .hbm, ⟨2, _⟩ => ⟨S_, .f32⟩
  | .hbm, ⟨3, _⟩ => ⟨S16x4x514x514, .f32⟩
  | .hbm, ⟨4, _⟩ => ⟨S16x3x512x512, .f32⟩
  | .local _ .vmem, ⟨0, _⟩ => ⟨S1x4x514x514, .f32⟩
  | .local _ .vmem, ⟨1, _⟩ => ⟨S1x4x514x514, .f32⟩
  | .local _ .vmem, ⟨2, _⟩ => ⟨S1x3x512x512, .f32⟩
  | .local _ .vmem, ⟨3, _⟩ => ⟨S1x3x512x512, .f32⟩
  | _, _ => ⟨S16x4x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x4x514x514 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  pads_S16x4x512x512_S16x4x514x514_000_000_110_110 : S16x4x512x512.Pads (![0, 0, 1, 1] : Fin 4 → Nat) ![0, 0, 1, 1] ![0, 0, 0, 0] S16x4x514x514
  h_S_ : 0 < S_.numel
  inb_S1x4x514x514_S1x4x514x514_0_0_0_0 : ∀ a, (![0, 0, 0, 0] : Fin 4 → Nat) a + S1x4x514x514.size a ≤ S1x4x514x514.size a
  h_S1x4x514x514 : 0 < S1x4x514x514.numel
  shapeCasts_S1x4x514x514_S4x514x514 : S1x4x514x514.ShapeCasts S4x514x514
  slices_S4x514x514_o0_0_0_S3x514x514 : S4x514x514.Slices ![0, 0, 0] S3x514x514
  slices_S4x514x514_o3_0_0_S1x514x514 : S4x514x514.Slices ![3, 0, 0] S1x514x514
  slices_S3x514x514_o0_0_0_S3x512x512 : S3x514x514.Slices ![0, 0, 0] S3x512x512
  slices_S1x514x514_o0_0_0_S1x512x512 : S1x514x514.Slices ![0, 0, 0] S1x512x512
  broadcasts_S1x512x512_S3x512x512 : S1x512x512.Broadcasts S3x512x512
  slices_S3x514x514_o0_0_1_S3x512x512 : S3x514x514.Slices ![0, 0, 1] S3x512x512
  slices_S1x514x514_o0_0_1_S1x512x512 : S1x514x514.Slices ![0, 0, 1] S1x512x512
  slices_S3x514x514_o0_0_2_S3x512x512 : S3x514x514.Slices ![0, 0, 2] S3x512x512
  slices_S1x514x514_o0_0_2_S1x512x512 : S1x514x514.Slices ![0, 0, 2] S1x512x512
  slices_S3x514x514_o0_1_0_S3x512x512 : S3x514x514.Slices ![0, 1, 0] S3x512x512
  slices_S1x514x514_o0_1_0_S1x512x512 : S1x514x514.Slices ![0, 1, 0] S1x512x512
  slices_S3x514x514_o0_1_1_S3x512x512 : S3x514x514.Slices ![0, 1, 1] S3x512x512
  slices_S1x514x514_o0_1_1_S1x512x512 : S1x514x514.Slices ![0, 1, 1] S1x512x512
  slices_S3x514x514_o0_1_2_S3x512x512 : S3x514x514.Slices ![0, 1, 2] S3x512x512
  slices_S1x514x514_o0_1_2_S1x512x512 : S1x514x514.Slices ![0, 1, 2] S1x512x512
  slices_S3x514x514_o0_2_0_S3x512x512 : S3x514x514.Slices ![0, 2, 0] S3x512x512
  slices_S1x514x514_o0_2_0_S1x512x512 : S1x514x514.Slices ![0, 2, 0] S1x512x512
  slices_S3x514x514_o0_2_1_S3x512x512 : S3x514x514.Slices ![0, 2, 1] S3x512x512
  slices_S1x514x514_o0_2_1_S1x512x512 : S1x514x514.Slices ![0, 2, 1] S1x512x512
  slices_S3x514x514_o0_2_2_S3x512x512 : S3x514x514.Slices ![0, 2, 2] S3x512x512
  slices_S1x514x514_o0_2_2_S1x512x512 : S1x514x514.Slices ![0, 2, 2] S1x512x512
  inb_S1x3x512x512_S1x3x512x512_0_0_0_0 : ∀ a, (![0, 0, 0, 0] : Fin 4 → Nat) a + S1x3x512x512.size a ≤ S1x3x512x512.size a
  h_S1x3x512x512 : 0 < S1x3x512x512.numel
  shapeCasts_S1x3x512x512_S3x512x512 : S1x3x512x512.ShapeCasts S3x512x512
  shapeCasts_S3x512x512_S1x3x512x512 : S3x512x512.ShapeCasts S1x3x512x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4x514x514.size a ≤ S16x4x514x514.size a
  hwx0_0 : ∀ i : grid0.Coords, EltTy.bits .f32 = 32 ∨ (Rect.block (s := S16x4x514x514) S1x4x514x514.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x512x512.size a ≤ S16x3x512x512.size a
  hwx0_1 : ∀ i : grid0.Coords, EltTy.bits .f32 = 32 ∨ (Rect.block (s := S16x3x512x512) S1x3x512x512.size (cc0_transform_1 i) (hinb0_1 i)).WholeWords (EltTy.packing .f32)

variable [Facts₀]

abbrev win0_0 : Pipeline.Window sig grid0 :=
  Pipeline.Window.ofSpec (Memref.whole main_v0) S1x4x514x514.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x3x512x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x4x512x512 : Shape := ⟨4, ![16, 4, 512, 512]⟩
abbrev S16x3x512x512 : Shape := ⟨4, ![16, 3, 512, 512]⟩
abbrev S16x1x512x512 : Shape := ⟨4, ![16, 1, 512, 512]⟩
abbrev S_ : Shape := ⟨0, ![]⟩
abbrev S16x3x514x514 : Shape := ⟨4, ![16, 3, 514, 514]⟩
abbrev S16x3x1x512x512 : Shape := ⟨5, ![16, 3, 1, 512, 512]⟩
abbrev S16x3x9x512x512 : Shape := ⟨5, ![16, 3, 9, 512, 512]⟩
abbrev S16x1x514x514 : Shape := ⟨4, ![16, 1, 514, 514]⟩
abbrev S16x1x1x512x512 : Shape := ⟨5, ![16, 1, 1, 512, 512]⟩
abbrev S16x1x9x512x512 : Shape := ⟨5, ![16, 1, 9, 512, 512]⟩

abbrev nBuf : Space → Nat
  | .hbm => 51
  | .vmem => 0
  | .smem => 0
  | _ => 0

abbrev bufTy : (tb : Table) → Fin (tcTables nBuf tb) → BufTy
  | .hbm, ⟨0, _⟩ => ⟨S16x4x512x512, .f32⟩
  | .hbm, ⟨1, _⟩ => ⟨S16x3x512x512, .f32⟩
  | .hbm, ⟨2, _⟩ => ⟨S16x1x512x512, .f32⟩
  | .hbm, ⟨3, _⟩ => ⟨S_, .i32⟩
  | .hbm, ⟨4, _⟩ => ⟨S_, .f32⟩
  | .hbm, ⟨5, _⟩ => ⟨S16x3x514x514, .f32⟩
  | .hbm, ⟨6, _⟩ => ⟨S16x3x512x512, .f32⟩
  | .hbm, ⟨7, _⟩ => ⟨S16x3x512x512, .f32⟩
  | .hbm, ⟨8, _⟩ => ⟨S16x3x512x512, .f32⟩
  | .hbm, ⟨9, _⟩ => ⟨S16x3x512x512, .f32⟩
  | .hbm, ⟨10, _⟩ => ⟨S16x3x512x512, .f32⟩
  | .hbm, ⟨11, _⟩ => ⟨S16x3x512x512, .f32⟩
  | .hbm, ⟨12, _⟩ => ⟨S16x3x512x512, .f32⟩
  | .hbm, ⟨13, _⟩ => ⟨S16x3x512x512, .f32⟩
  | .hbm, ⟨14, _⟩ => ⟨S16x3x512x512, .f32⟩
  | .hbm, ⟨15, _⟩ => ⟨S16x3x1x512x512, .f32⟩
  | .hbm, ⟨16, _⟩ => ⟨S16x3x1x512x512, .f32⟩
  | .hbm, ⟨17, _⟩ => ⟨S16x3x1x512x512, .f32⟩
  | .hbm, ⟨18, _⟩ => ⟨S16x3x1x512x512, .f32⟩
  | .hbm, ⟨19, _⟩ => ⟨S16x3x1x512x512, .f32⟩
  | .hbm, ⟨20, _⟩ => ⟨S16x3x1x512x512, .f32⟩
  | .hbm, ⟨21, _⟩ => ⟨S16x3x1x512x512, .f32⟩
  | .hbm, ⟨22, _⟩ => ⟨S16x3x1x512x512, .f32⟩
  | .hbm, ⟨23, _⟩ => ⟨S16x3x1x512x512, .f32⟩
  | .hbm, ⟨24, _⟩ => ⟨S16x3x9x512x512, .f32⟩
  | .hbm, ⟨25, _⟩ => ⟨S_, .i32⟩
  | .hbm, ⟨26, _⟩ => ⟨S_, .f32⟩
  | .hbm, ⟨27, _⟩ => ⟨S16x1x514x514, .f32⟩
  | .hbm, ⟨28, _⟩ => ⟨S16x1x512x512, .f32⟩
  | .hbm, ⟨29, _⟩ => ⟨S16x1x512x512, .f32⟩
  | .hbm, ⟨30, _⟩ => ⟨S16x1x512x512, .f32⟩
  | .hbm, ⟨31, _⟩ => ⟨S16x1x512x512, .f32⟩
  | .hbm, ⟨32, _⟩ => ⟨S16x1x512x512, .f32⟩
  | .hbm, ⟨33, _⟩ => ⟨S16x1x512x512, .f32⟩
  | .hbm, ⟨34, _⟩ => ⟨S16x1x512x512, .f32⟩
  | .hbm, ⟨35, _⟩ => ⟨S16x1x512x512, .f32⟩
  | .hbm, ⟨36, _⟩ => ⟨S16x1x512x512, .f32⟩
  | .hbm, ⟨37, _⟩ => ⟨S16x1x1x512x512, .f32⟩
  | .hbm, ⟨38, _⟩ => ⟨S16x1x1x512x512, .f32⟩
  | .hbm, ⟨39, _⟩ => ⟨S16x1x1x512x512, .f32⟩
  | .hbm, ⟨40, _⟩ => ⟨S16x1x1x512x512, .f32⟩
  | .hbm, ⟨41, _⟩ => ⟨S16x1x1x512x512, .f32⟩
  | .hbm, ⟨42, _⟩ => ⟨S16x1x1x512x512, .f32⟩
  | .hbm, ⟨43, _⟩ => ⟨S16x1x1x512x512, .f32⟩
  | .hbm, ⟨44, _⟩ => ⟨S16x1x1x512x512, .f32⟩
  | .hbm, ⟨45, _⟩ => ⟨S16x1x1x512x512, .f32⟩
  | .hbm, ⟨46, _⟩ => ⟨S16x1x9x512x512, .f32⟩
  | .hbm, ⟨47, _⟩ => ⟨S16x3x9x512x512, .f32⟩
  | .hbm, ⟨48, _⟩ => ⟨S16x3x9x512x512, .f32⟩
  | .hbm, ⟨49, _⟩ => ⟨S_, .f32⟩
  | .hbm, ⟨50, _⟩ => ⟨S16x3x512x512, .f32⟩
  | _, _ => ⟨S16x4x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_c : Ref sig .tc := ⟨.hbm, 3, rfl⟩
abbrev main_call0_v0 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_c_0 : Ref sig .tc := ⟨.hbm, 25, rfl⟩
abbrev main_call1_v0 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_cst : Ref sig .tc := ⟨.hbm, 49, rfl⟩
abbrev main_v44 : Ref sig .tc := ⟨.hbm, 50, rfl⟩

abbrev nD : Nat := 1
abbrev τ : Topo := Topo.v7x

variable {F : FTy → Type} [FloatOps F]

class Facts₀ : Prop where
  slices_S16x4x512x512_S16x3x512x512_0_0_0_0 : S16x4x512x512.Slices ![0, 0, 0, 0] S16x3x512x512
  slices_S16x4x512x512_S16x1x512x512_0_3_0_0 : S16x4x512x512.Slices ![0, 3, 0, 0] S16x1x512x512
  pads_S16x3x512x512_S16x3x514x514_000_000_110_110 : S16x3x512x512.Pads (![0, 0, 1, 1] : Fin 4 → Nat) ![0, 0, 1, 1] ![0, 0, 0, 0] S16x3x514x514
  h_S_ : 0 < S_.numel
  slices_S16x3x514x514_S16x3x512x512_0_0_0_0 : S16x3x514x514.Slices ![0, 0, 0, 0] S16x3x512x512
  slices_S16x3x514x514_S16x3x512x512_0_0_0_1 : S16x3x514x514.Slices ![0, 0, 0, 1] S16x3x512x512
  slices_S16x3x514x514_S16x3x512x512_0_0_0_2 : S16x3x514x514.Slices ![0, 0, 0, 2] S16x3x512x512
  slices_S16x3x514x514_S16x3x512x512_0_0_1_0 : S16x3x514x514.Slices ![0, 0, 1, 0] S16x3x512x512
  slices_S16x3x514x514_S16x3x512x512_0_0_1_1 : S16x3x514x514.Slices ![0, 0, 1, 1] S16x3x512x512
  slices_S16x3x514x514_S16x3x512x512_0_0_1_2 : S16x3x514x514.Slices ![0, 0, 1, 2] S16x3x512x512
  slices_S16x3x514x514_S16x3x512x512_0_0_2_0 : S16x3x514x514.Slices ![0, 0, 2, 0] S16x3x512x512
  slices_S16x3x514x514_S16x3x512x512_0_0_2_1 : S16x3x514x514.Slices ![0, 0, 2, 1] S16x3x512x512
  slices_S16x3x514x514_S16x3x512x512_0_0_2_2 : S16x3x514x514.Slices ![0, 0, 2, 2] S16x3x512x512
  bcast_S16x3x512x512_S16x3x1x512x512_0_1_3_4 : S16x3x512x512.BroadcastsInDim S16x3x1x512x512 (![0, 1, 3, 4] : Fin 4 → Fin S16x3x1x512x512.rank)
  concatenates_S16x3x1x512x512_S16x3x1x512x512_S16x3x1x512x512_S16x3x1x512x512_S16x3x1x512x512_S16x3x1x512x512_S16x3x1x512x512_S16x3x1x512x512_S16x3x1x512x512_S16x3x9x512x512_d2 : Shape.Concatenates [S16x3x1x512x512, S16x3x1x512x512, S16x3x1x512x512, S16x3x1x512x512, S16x3x1x512x512, S16x3x1x512x512, S16x3x1x512x512, S16x3x1x512x512, S16x3x1x512x512] S16x3x9x512x512 2
  pads_S16x1x512x512_S16x1x514x514_000_000_110_110 : S16x1x512x512.Pads (![0, 0, 1, 1] : Fin 4 → Nat) ![0, 0, 1, 1] ![0, 0, 0, 0] S16x1x514x514
  slices_S16x1x514x514_S16x1x512x512_0_0_0_0 : S16x1x514x514.Slices ![0, 0, 0, 0] S16x1x512x512
  slices_S16x1x514x514_S16x1x512x512_0_0_0_1 : S16x1x514x514.Slices ![0, 0, 0, 1] S16x1x512x512
  slices_S16x1x514x514_S16x1x512x512_0_0_0_2 : S16x1x514x514.Slices ![0, 0, 0, 2] S16x1x512x512
  slices_S16x1x514x514_S16x1x512x512_0_0_1_0 : S16x1x514x514.Slices ![0, 0, 1, 0] S16x1x512x512
  slices_S16x1x514x514_S16x1x512x512_0_0_1_1 : S16x1x514x514.Slices ![0, 0, 1, 1] S16x1x512x512
  slices_S16x1x514x514_S16x1x512x512_0_0_1_2 : S16x1x514x514.Slices ![0, 0, 1, 2] S16x1x512x512
  slices_S16x1x514x514_S16x1x512x512_0_0_2_0 : S16x1x514x514.Slices ![0, 0, 2, 0] S16x1x512x512
  slices_S16x1x514x514_S16x1x512x512_0_0_2_1 : S16x1x514x514.Slices ![0, 0, 2, 1] S16x1x512x512
  slices_S16x1x514x514_S16x1x512x512_0_0_2_2 : S16x1x514x514.Slices ![0, 0, 2, 2] S16x1x512x512
  bcast_S16x1x512x512_S16x1x1x512x512_0_1_3_4 : S16x1x512x512.BroadcastsInDim S16x1x1x512x512 (![0, 1, 3, 4] : Fin 4 → Fin S16x1x1x512x512.rank)
  concatenates_S16x1x1x512x512_S16x1x1x512x512_S16x1x1x512x512_S16x1x1x512x512_S16x1x1x512x512_S16x1x1x512x512_S16x1x1x512x512_S16x1x1x512x512_S16x1x1x512x512_S16x1x9x512x512_d2 : Shape.Concatenates [S16x1x1x512x512, S16x1x1x512x512, S16x1x1x512x512, S16x1x1x512x512, S16x1x1x512x512, S16x1x1x512x512, S16x1x1x512x512, S16x1x1x512x512, S16x1x1x512x512] S16x1x9x512x512 2
  bcast_S16x1x9x512x512_S16x3x9x512x512_0_1_2_3_4 : S16x1x9x512x512.BroadcastsInDim S16x3x9x512x512 (![0, 1, 2, 3, 4] : Fin 5 → Fin S16x3x9x512x512.rank)
  reducesTo_S16x3x9x512x512_S16x3x512x512_d2 : S16x3x9x512x512.ReducesTo [2] S16x3x512x512

variable [Facts₀]

class Facts : Prop extends Facts₀ where

variable [Facts]
-- ==== Proof.Window.lean ====
/-
  The window sum this certificate is about.  `A` is an image batch [16, 4, 514, 514]: three colour channels and one
  alpha channel (channel 3), each 512 × 512 picture carrying a border of one row and one column on every side.  For the
  output pixel (h, w) of colour channel c the nine positions (h + i, w + j), i, j ∈ {0, 1, 2}, of the bordered picture are
  visited in row-major order, and at each the colour entry is multiplied by the alpha entry (`tap`); the products are
  added one after another, starting from zero, on the extended reals (`sumAt`, `G`).
  Addition of extended reals is commutative and associative, so the value does not depend on how the nine terms
  are grouped: a sum over `Fin 9` added to a start value is the same nine terms added left to right (`add_sum_nine`).
-/
import Idealize.ShloMosaic.PureOps.Ideal.Laws
import Idealize.ShloMosaic.Lib.ValueIdx

noncomputable section

namespace Cert.Window

open Idealize.ShloMosaic Idealize.ShloMosaic.ValueIdx

/-- The product at window position (i, j): colour channel `c` times the alpha channel, both at (h + i, w + j) of
    the bordered picture `b`. -/
def tap (A : (⟨4, ![16, 4, 514, 514]⟩ : Shape).Idx → EReal) (b : Fin 16) (c : Fin 3) (h w : Fin 512) (i j : Nat)
    (hi : i ≤ 2) (hj : j ≤ 2) : EReal :=
  A (ix4 b ⟨c.val, by have := c.isLt; omega⟩ ⟨h.val + i, by have := h.isLt; omega⟩ ⟨w.val + j, by have := w.isLt; omega⟩)
    * A (ix4 b ⟨3, by decide⟩ ⟨h.val + i, by have := h.isLt; omega⟩ ⟨w.val + j, by have := w.isLt; omega⟩)

/-- The nine products in row-major order of the window, added one after another from zero. -/
def sumAt (A : (⟨4, ![16, 4, 514, 514]⟩ : Shape).Idx → EReal) (b : Fin 16) (c : Fin 3) (h w : Fin 512) : EReal :=
  0 + tap A b c h w 0 0 (by omega) (by omega)
    + tap A b c h w 0 1 (by omega) (by omega)
    + tap A b c h w 0 2 (by omega) (by omega)
    + tap A b c h w 1 0 (by omega) (by omega)
    + tap A b c h w 1 1 (by omega) (by omega)
    + tap A b c h w 1 2 (by omega) (by omega)
    + tap A b c h w 2 0 (by omega) (by omega)
    + tap A b c h w 2 1 (by omega) (by omega)
    + tap A b c h w 2 2 (by omega) (by omega)

/-- The whole result [16, 3, 512, 512] as one function of the bordered batch. -/
def G (A : (⟨4, ![16, 4, 514, 514]⟩ : Shape).Idx → EReal) : (⟨4, ![16, 3, 512, 512]⟩ : Shape).Idx → EReal :=
  fun o => sumAt A (o 0) (o 1) (o 2) (o 3)

theorem G_ix4 (A : (⟨4, ![16, 4, 514, 514]⟩ : Shape).Idx → EReal) (b : Fin 16) (c : Fin 3) (h w : Fin 512) :
    G A (ix4 b c h w) = sumAt A b c h w := rfl

/-- A start value plus a sum over nine indices is the nine terms added to it left to right. -/
theorem add_sum_nine (z : EReal) (f : Fin 9 → EReal) :
    z + ∑ k : Fin 9, f k = z + f ⟨0, by decide⟩ + f ⟨1, by decide⟩ + f ⟨2, by decide⟩ + f ⟨3, by decide⟩ + f ⟨4, by decide⟩ + f ⟨5, by decide⟩ + f ⟨6, by decide⟩ + f ⟨7, by decide⟩ + f ⟨8, by decide⟩ := by
  simp only [Fin.sum_univ_succ, Fin.sum_univ_zero, add_zero, ← add_assoc]
  rfl

end Cert.Window

end
-- ==== Proof.KernelBlock.lean ====
/-
  The body's output block, read at an index.

  The body loads its whole input block [1, 4, 514, 514] (one bordered picture: three colour channels, then alpha), drops the
  unit axis, cuts the colour channels [3, 514, 514] and the alpha channel [1, 514, 514] apart, and for each window position
  (i, j), i, j ∈ {0, 1, 2}, multiplies the colour window at offsets (i, j) by the alpha window at the same offsets repeated
  over the three colour channels; the nine products are added, one after another from a zero vector, and the sum is stored
  with the unit axis put back.
  Read at (c, h, w), the colour window at (i, j) is the block's entry at (0, c, h + i, w + j) (`colour_tap`), the repeated
  alpha window its entry at (0, 3, h + i, w + j) (`alpha_tap`), so what the block holds at (0, c, h, w) is the window sum
  at (q, c, h, w) of any array whose picture `q` the input block is (`payload_apply`).
-/
import proofs.«170923_j6313601925505_1_alg».proof.Proof.Gen.KernelIdeal.Frame
import proofs.«170923_j6313601925505_1_alg».proof.Proof.Window
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.TcCoe
open Idealize.ShloMosaic.ValueIdx Cert.Window

variable (P0 : Vec Ideal S1x4x514x514 .f32)

/-- The colour window at offsets (i, j), read at (c, h, w): the block at (0, c, h + i, w + j). -/
theorem colour_tap (i j : Nat) (hs : S3x514x514.Slices ![0, i, j] S3x512x512) (c : Fin 3) (h w : Fin 512)
    (hh : h.val + i < 514) (hw : w.val + j < 514) :
    extractStridedSlice S3x512x512 ![0, i, j]
        (extractStridedSlice S3x514x514 ![0, 0, 0] (shapeCast S4x514x514 P0 shapeCasts_S1x4x514x514_S4x514x514)
          slices_S4x514x514_o0_0_0_S3x514x514) hs (ix3 c h w)
      = P0 (ix4 (0 : Fin 1) (⟨c.val, by have := c.isLt; omega⟩ : Fin 4) (⟨h.val + i, hh⟩ : Fin 514) (⟨w.val + j, hw⟩ : Fin 514)) := by
  refine (extractStridedSlice_apply ![0, i, j] _ hs (ix3 c h w)
    (ix3 c (⟨h.val + i, hh⟩ : Fin 514) (⟨w.val + j, hw⟩ : Fin 514)) (fun a => match a with
    | ⟨0, _⟩ => by show c.val = 0 + c.val; omega
    | ⟨1, _⟩ => by show h.val + i = i + h.val; omega
    | ⟨2, _⟩ => by show w.val + j = j + w.val; omega)).trans ?_
  refine (extractStridedSlice_apply ![0, 0, 0] _ slices_S4x514x514_o0_0_0_S3x514x514
    (ix3 c (⟨h.val + i, hh⟩ : Fin 514) (⟨w.val + j, hw⟩ : Fin 514))
    (ix3 (⟨c.val, by have := c.isLt; omega⟩ : Fin 4) (⟨h.val + i, hh⟩ : Fin 514) (⟨w.val + j, hw⟩ : Fin 514)) (fun a => match a with
    | ⟨0, _⟩ => by show c.val = 0 + c.val; omega
    | ⟨1, _⟩ => by show h.val + i = 0 + (h.val + i); omega
    | ⟨2, _⟩ => by show w.val + j = 0 + (w.val + j); omega)).trans ?_
  refine (shapeCast_dropUnit_apply ![4, 514, 514] P0 shapeCasts_S1x4x514x514_S4x514x514 _).trans ?_
  exact congrArg P0 (funext fun a => match a with
    | ⟨0, _⟩ => rfl
    | ⟨1, _⟩ => rfl
    | ⟨2, _⟩ => rfl
    | ⟨3, _⟩ => rfl)

/-- The alpha window at offsets (i, j), repeated over the colour channels, read at (c, h, w): the block at
    (0, 3, h + i, w + j), whatever `c`. -/
theorem alpha_tap (i j : Nat) (hs : S1x514x514.Slices ![0, i, j] S1x512x512) (c : Fin 3) (h w : Fin 512)
    (hh : h.val + i < 514) (hw : w.val + j < 514) :
    broadcastTo S3x512x512
        (extractStridedSlice S1x512x512 ![0, i, j]
          (extractStridedSlice S1x514x514 ![3, 0, 0] (shapeCast S4x514x514 P0 shapeCasts_S1x4x514x514_S4x514x514)
            slices_S4x514x514_o3_0_0_S1x514x514) hs) broadcasts_S1x512x512_S3x512x512 (ix3 c h w)
      = P0 (ix4 (0 : Fin 1) (⟨3, by decide⟩ : Fin 4) (⟨h.val + i, hh⟩ : Fin 514) (⟨w.val + j, hw⟩ : Fin 514)) := by
  refine (broadcastTo_apply _ broadcasts_S1x512x512_S3x512x512 (ix3 c h w) (ix3 (0 : Fin 1) h w) (fun a => match a with
    | ⟨0, _⟩ => by show 0 = if (1 : Nat) = 1 then 0 else c.val; rw [if_pos rfl]
    | ⟨1, _⟩ => by show h.val = if (512 : Nat) = 1 then 0 else h.val; rw [if_neg (by decide)]
    | ⟨2, _⟩ => by show w.val = if (512 : Nat) = 1 then 0 else w.val; rw [if_neg (by decide)])).trans ?_
  refine (extractStridedSlice_apply ![0, i, j] _ hs (ix3 (0 : Fin 1) h w)
    (ix3 (0 : Fin 1) (⟨h.val + i, hh⟩ : Fin 514) (⟨w.val + j, hw⟩ : Fin 514)) (fun a => match a with
    | ⟨0, _⟩ => by show 0 = 0 + 0; omega
    | ⟨1, _⟩ => by show h.val + i = i + h.val; omega
    | ⟨2, _⟩ => by show w.val + j = j + w.val; omega)).trans ?_
  refine (extractStridedSlice_apply ![3, 0, 0] _ slices_S4x514x514_o3_0_0_S1x514x514
    (ix3 (0 : Fin 1) (⟨h.val + i, hh⟩ : Fin 514) (⟨w.val + j, hw⟩ : Fin 514))
    (ix3 (⟨3, by decide⟩ : Fin 4) (⟨h.val + i, hh⟩ : Fin 514) (⟨w.val + j, hw⟩ : Fin 514)) (fun a => match a with
    | ⟨0, _⟩ => by show 3 = 3 + 0; omega
    | ⟨1, _⟩ => by show h.val + i = 0 + (h.val + i); omega
    | ⟨2, _⟩ => by show w.val + j = 0 + (w.val + j); omega)).trans ?_
  refine (shapeCast_dropUnit_apply ![4, 514, 514] P0 shapeCasts_S1x4x514x514_S4x514x514 _).trans ?_
  exact congrArg P0 (funext fun a => match a with
    | ⟨0, _⟩ => rfl
    | ⟨1, _⟩ => rfl
    | ⟨2, _⟩ => rfl
    | ⟨3, _⟩ => rfl)

/-- WHAT THE BODY STORES at (0, c, h, w) — zero, then the nine products added one after another — is the window sum at
    (q, c, h, w) of any array `A` whose picture `q` the input block is. -/
theorem payload_apply (A : S16x4x514x514.Idx → EReal) (q : Fin 16)
    (hP : ∀ y' : S1x4x514x514.Idx, P0 y' = A (ix4 q (y' 1) (y' 2) (y' 3)))
    (y : S1x3x512x512.Idx) : k0_pay1 (k0_pay2 P0) y = sumAt A q (y 1) (y 2) (y 3) := by
  obtain ⟨z, c, h, w, rfl⟩ : ∃ (z : Fin 1) (c : Fin 3) (h w : Fin 512), y = ix4 z c h w :=
    ⟨y 0, y 1, y 2, y 3, eq_ix4 y⟩
  have hj : (fun a : Fin 3 => (ix4 z c h w) a.succ) = ix3 c h w := funext fun a => match a with
    | ⟨0, _⟩ => rfl
    | ⟨1, _⟩ => rfl
    | ⟨2, _⟩ => rfl
  have hh0 : h.val + 0 < 514 := by have := h.isLt; omega
  have hh1 : h.val + 1 < 514 := by have := h.isLt; omega
  have hh2 : h.val + 2 < 514 := by have := h.isLt; omega
  have hw0 : w.val + 0 < 514 := by have := w.isLt; omega
  have hw1 : w.val + 1 < 514 := by have := w.isLt; omega
  have hw2 : w.val + 2 < 514 := by have := w.isLt; omega
  show shapeCast S1x3x512x512 (k0_pay2 P0) shapeCasts_S3x512x512_S1x3x512x512 (ix4 z c h w) = _
  rw [shapeCast_addUnit_apply ![3, 512, 512] (k0_pay2 P0) shapeCasts_S3x512x512_S1x3x512x512 (ix4 z c h w), hj]
  unfold k0_pay2
  simp only [addf, mulf, broadcast, Ideal.addf_def, Ideal.mulf_def]
  rw [colour_tap P0 0 0 slices_S3x514x514_o0_0_0_S3x512x512 c h w hh0 hw0,
    alpha_tap P0 0 0 slices_S1x514x514_o0_0_0_S1x512x512 c h w hh0 hw0,
    colour_tap P0 0 1 slices_S3x514x514_o0_0_1_S3x512x512 c h w hh0 hw1,
    alpha_tap P0 0 1 slices_S1x514x514_o0_0_1_S1x512x512 c h w hh0 hw1,
    colour_tap P0 0 2 slices_S3x514x514_o0_0_2_S3x512x512 c h w hh0 hw2,
    alpha_tap P0 0 2 slices_S1x514x514_o0_0_2_S1x512x512 c h w hh0 hw2,
    colour_tap P0 1 0 slices_S3x514x514_o0_1_0_S3x512x512 c h w hh1 hw0,
    alpha_tap P0 1 0 slices_S1x514x514_o0_1_0_S1x512x512 c h w hh1 hw0,
    colour_tap P0 1 1 slices_S3x514x514_o0_1_1_S3x512x512 c h w hh1 hw1,
    alpha_tap P0 1 1 slices_S1x514x514_o0_1_1_S1x512x512 c h w hh1 hw1,
    colour_tap P0 1 2 slices_S3x514x514_o0_1_2_S3x512x512 c h w hh1 hw2,
    alpha_tap P0 1 2 slices_S1x514x514_o0_1_2_S1x512x512 c h w hh1 hw2,
    colour_tap P0 2 0 slices_S3x514x514_o0_2_0_S3x512x512 c h w hh2 hw0,
    alpha_tap P0 2 0 slices_S1x514x514_o0_2_0_S1x512x512 c h w hh2 hw0,
    colour_tap P0 2 1 slices_S3x514x514_o0_2_1_S3x512x512 c h w hh2 hw1,
    alpha_tap P0 2 1 slices_S1x514x514_o0_2_1_S1x512x512 c h w hh2 hw1,
    colour_tap P0 2 2 slices_S3x514x514_o0_2_2_S3x512x512 c h w hh2 hw2,
    alpha_tap P0 2 2 slices_S1x514x514_o0_2_2_S1x512x512 c h w hh2 hw2]
  simp only [hP]
  show Ideal.ofBits .f32 0x00000000#32 + _ + _ + _ + _ + _ + _ + _ + _ + _ = _
  rw [Ideal.ofBits_zero_f32]
  rfl

end Cert.KernelIdeal.Block

end
-- ==== Proof.KernelArray.lean ====
/-
  The kernel's result array, index by index, is the window sum `Cert.Window.G` of the bordered batch.

  The host borders the whole input [16, 4, 512, 512] to [16, 4, 514, 514] (`bordered_eq`); grid point `t` is handed picture
  `t` of the bordered batch as its block, and the body leaves in the output block, at (0, c, h, w), zero plus the nine
  products colour · alpha at (h + i, w + j), taken in row-major order of (i, j): the window sum of the bordered batch at
  (t, c, h, w) (Proof/KernelBlock.lean's `payload_apply`, then `flushed_eq` here).  The sixteen output blocks are the sixteen pictures of the result, so they
  cover it (`cover`), and the array after the run is the window sum everywhere (`final`, `run`).
-/
import proofs.«170923_j6313601925505_1_alg».proof.Proof.Gen.KernelIdeal.Frame
import proofs.«170923_j6313601925505_1_alg».proof.Proof.KernelBlock
import proofs.«170923_j6313601925505_1_alg».proof.Proof.Window
import Idealize.ShloMosaic.Lib.StableHlo.Run
import Idealize.ShloMosaic.PureOps.Ideal.Laws

set_option maxRecDepth 16384

noncomputable section

namespace Cert.KernelIdeal.WindowValue

open Cert.KernelIdeal Cert.KernelIdeal.Gen Cert.KernelIdeal.Block Idealize.ShloMosaic Idealize.ShloMosaic.TcCoe Idealize.SL.Sem
open Idealize.ShloMosaic.Pipeline (Dat)
open Idealize.ShloMosaic.ValueIdx Cert.Window

variable (m : (ℓ : Loc nD τ sig) → Buf (Elt Ideal) ℓ) (ρ : Dev nD → PrngReg)

theorem hz4 : (![0, 0, 0, 0] : Fin 4 → Nat) = fun _ => 0 := funext fun a => by fin_cases a <;> rfl

/-- The printed index maps, decided over the sixteen points: both windows move along the batch axis with the point. -/
theorem idx_facts : ∀ t : Fin cfg0.N, win0_0.index t (0 : Fin 4) = t.val ∧ win0_0.index t (1 : Fin 4) = 0
    ∧ win0_0.index t (2 : Fin 4) = 0 ∧ win0_0.index t (3 : Fin 4) = 0
    ∧ win0_1.index t (0 : Fin 4) = t.val ∧ win0_1.index t (1 : Fin 4) = 0
    ∧ win0_1.index t (2 : Fin 4) = 0 ∧ win0_1.index t (3 : Fin 4) = 0 :=
  (by decide +kernel : ∀ t : Fin grid0.N, _)

/-- WHAT POINT `t` WRITES BACK is block `t` of the window sum of the bordered batch as the region finds it. -/
theorem flushed_eq (c : Dev nD) (t : Fin cfg0.N) :
    (dats m 0 c).flushed 1 t = ((cfg0.win 1).blk t).view.read (Elt Ideal) (G (V m c main_v0)) := by
  show (cfg0.win 1).cut (grid0.coords t) ((dats m 0 c).after 1 t) = _
  rw [after0_1]
  unfold out0_1
  rw [View.canon_unit_zero hz4]
  simp only [View.ld_unit_zero (S := S1x4x514x514) hz4]
  obtain ⟨e0, e1, e2, e3, f0, f1, f2, f3⟩ := idx_facts t
  have hq : t.val < 16 := t.isLt
  refine funext fun (y : S1x3x512x512.Idx) => ?_
  show k0_pay1 (k0_pay2 (iblk m c 0 t)) y = G (V m c main_v0) (((cfg0.win 1).blk t).view.emb y)
  have hemb : (((cfg0.win 1).blk t).view.emb y : S16x3x512x512.Idx) = ix4 (⟨t.val, hq⟩ : Fin 16) (y 1) (y 2) (y 3) := by
    funext a; apply Fin.ext
    match a with
    | ⟨0, _⟩ => show win0_1.index t (0 : Fin 4) * 1 + 1 * (y 0).val = t.val; have hy : (y 0).val < 1 := (y 0).isLt; omega
    | ⟨1, _⟩ => show win0_1.index t (1 : Fin 4) * 3 + 1 * (y 1).val = (y 1).val; omega
    | ⟨2, _⟩ => show win0_1.index t (2 : Fin 4) * 512 + 1 * (y 2).val = (y 2).val; omega
    | ⟨3, _⟩ => show win0_1.index t (3 : Fin 4) * 512 + 1 * (y 3).val = (y 3).val; omega
  have hG : G (V m c main_v0) (((cfg0.win 1).blk t).view.emb y) = sumAt (V m c main_v0) ⟨t.val, hq⟩ (y 1) (y 2) (y 3) :=
    (congrArg (G (V m c main_v0)) hemb).trans (G_ix4 (V m c main_v0) ⟨t.val, hq⟩ (y 1) (y 2) (y 3))
  refine Eq.trans ?_ hG.symm
  refine payload_apply (iblk m c 0 t) (V m c main_v0) ⟨t.val, hq⟩ (fun (y' : S1x4x514x514.Idx) => ?_) y
  show V m c main_v0 (((cfg0.win 0).blk t).view.emb y') = V m c main_v0 (ix4 (⟨t.val, hq⟩ : Fin 16) (y' 1) (y' 2) (y' 3))
  refine congrArg (V m c main_v0) ?_
  funext a; apply Fin.ext
  match a with
  | ⟨0, _⟩ => show win0_0.index t (0 : Fin 4) * 1 + 1 * (y' 0).val = t.val; have hy : (y' 0).val < 1 := (y' 0).isLt; omega
  | ⟨1, _⟩ => show win0_0.index t (1 : Fin 4) * 4 + 1 * (y' 1).val = (y' 1).val; omega
  | ⟨2, _⟩ => show win0_0.index t (2 : Fin 4) * 514 + 1 * (y' 2).val = (y' 2).val; omega
  | ⟨3, _⟩ => show win0_0.index t (3 : Fin 4) * 514 + 1 * (y' 3).val = (y' 3).val; omega

/-- An index of the result is in point `t`'s block iff each coordinate is in the block's range on its axis. -/
theorem mem_blk (t : Fin cfg0.N) (i : S16x3x512x512.Idx) :
    i ∈ ((cfg0.win 1).blk t).view.set ↔ ∀ a : Fin 4, win0_1.index t a * S1x3x512x512.size a ≤ (i a).val
      ∧ (i a).val < win0_1.index t a * S1x3x512x512.size a + S1x3x512x512.size a := by
  show i ∈ ((View.whole main_v1).slice (win0_1.rect t)).set ↔ _
  rw [View.set_slice_whole, Rect.mem_set_unit]
  exact Iff.rfl

/-- Every index of the result lies in the block of the point its batch coordinate names. -/
theorem cover (i : S16x3x512x512.Idx) :
    ∃ t : Fin cfg0.N, (cfg0.win 1).flush t = true ∧ i ∈ ((cfg0.win 1).blk t).view.set := by
  have hi0 : (i 0).val < 16 := (i 0).isLt
  have hi1 : (i 1).val < 3 := (i 1).isLt
  have hi2 : (i 2).val < 512 := (i 2).isLt
  have hi3 : (i 3).val < 512 := (i 3).isLt
  obtain ⟨t, ht⟩ : ∃ t : Fin cfg0.N, t.val = (i 0).val := ⟨⟨(i 0).val, (i 0).isLt⟩, rfl⟩
  obtain ⟨-, -, -, -, f0, f1, f2, f3⟩ := idx_facts t
  refine ⟨t, flush0_1 t, (mem_blk t i).2 ?_⟩
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 3 ≤ (i 1).val ∧ (i 1).val < win0_1.index t (1 : Fin 4) * 3 + 3; omega
  | ⟨2, _⟩ => show win0_1.index t (2 : Fin 4) * 512 ≤ (i 2).val ∧ (i 2).val < win0_1.index t (2 : Fin 4) * 512 + 512; omega
  | ⟨3, _⟩ => show win0_1.index t (3 : Fin 4) * 512 ≤ (i 3).val ∧ (i 3).val < win0_1.index t (3 : Fin 4) * 512 + 512; omega

/-- THE RESULT ARRAY after the run is the window sum of the bordered batch as the region finds it. -/
theorem final (c : Dev nD) : (dats m 0 c).arrAt 1 cfg0.N = G (V m c main_v0) :=
  (dats m 0 c).arrAt_eq_of_cover 1 (G (V m c main_v0)) (fun t _ => flushed_eq m c t) cover

/-- The bordered batch is the host's `pad` of the input by the converted integer zero. -/
theorem bordered_eq (c : Dev nD) : (V m c main_v0 : S16x4x514x514.Idx → Elt Ideal .f32) =
    pad S16x4x514x514 ![0, 0, 1, 1] ![0, 0, 1, 1] ![0, 0, 0, 0] (m ((c : Thread nD τ).loc main_arg0))
      (sitofp (F := Ideal) .f32 (constantI S_ 32 0#32)) pads_S16x4x512x512_S16x4x514x514_000_000_110_110 h_S_ := by
  dsimp only [Gen.V]
  simp only [Gen.hostOps0, Gen.hostOps0_1, List.flatten_cons, List.flatten_nil, List.append_nil, List.cons_append,
    List.nil_append]
  after_results
  rfl

/-- The run: the result array is the window sum of the bordered input, and the input is unchanged. -/
theorem run : θ_run defs (onTc (τ := τ) (main (F := Ideal))) ⟨m, fun _ => 0, ρ⟩ fun r => ∀ c : Dev nD,
      r.2.mem ((c : Thread nD τ).loc main_v1)
        = G (pad S16x4x514x514 ![0, 0, 1, 1] ![0, 0, 1, 1] ![0, 0, 0, 0] (m ((c : Thread nD τ).loc main_arg0))
            (sitofp (F := Ideal) .f32 (constantI S_ 32 0#32)) pads_S16x4x512x512_S16x4x514x514_000_000_110_110 h_S_)
      ∧ r.2.mem ((c : Thread nD τ).loc main_arg0) = m ((c : Thread nD τ).loc main_arg0) :=
  (θ_run defs _ _).mono (fun r h c => ⟨((h c).1 1).trans ((final m c).trans (congrArg G (bordered_eq m c))),
      ((h c).2 main_arg0 (Pipeline.mem_restRefs_of main_arg0 (by decide) (by decide))).trans (V_main_arg0 m c)⟩)
    (run_main m ρ)

end Cert.KernelIdeal.WindowValue

end
-- ==== Proof.LibPadChannel.lean ====
/-
  A host `pad` that puts a border on the last two axes of a rank-four array [B, C, H, W] — nothing on the two
  leading axes, nothing between entries — commutes with cutting a band of channels out of axis 1.  Read at
  (b, c, y, w), the padded band is the padded whole array at (b, off + c, y, w): inside the border both are the
  array's entry at (b, off + c, y − p, w − q); on the border both are the padding value.
-/
import Idealize.ShloMosaic.Lib.ValueIdx
import Idealize.ShloMosaic.Lib.Pipeline.Value
import Idealize.ShloMosaic.Lib.KernelVsHost

namespace Idealize.ShloMosaic.PadChannel

open Idealize.ShloMosaic Idealize.ShloMosaic.ValueIdx

variable {α : Type}

/-- The bordered band of channels `off … off + C − 1` at (b, c, y, w) is the bordered array at (b, off + c, y, w). -/
theorem pad_band_apply {B C C' H W H' W' : Nat} (off p q : Nat) (hi : Fin 4 → Nat)
    (x : (⟨4, ![B, C', H, W]⟩ : Shape).Idx → α) {u : Shape} (v : u.Idx → α) (hu : 0 < u.numel)
    (hs : (⟨4, ![B, C', H, W]⟩ : Shape).Slices ![0, off, 0, 0] ⟨4, ![B, C, H, W]⟩)
    (hp : (⟨4, ![B, C, H, W]⟩ : Shape).Pads ![0, 0, p, q] hi ![0, 0, 0, 0] ⟨4, ![B, C, H', W']⟩)
    (hp' : (⟨4, ![B, C', H, W]⟩ : Shape).Pads ![0, 0, p, q] hi ![0, 0, 0, 0] ⟨4, ![B, C', H', W']⟩)
    (b : Fin B) (c : Fin C) (c' : Fin C') (hc : c'.val = off + c.val) (y : Fin H') (w : Fin W') :
    pad ⟨4, ![B, C, H', W']⟩ ![0, 0, p, q] hi ![0, 0, 0, 0]
        (extractStridedSlice ⟨4, ![B, C, H, W]⟩ ![0, off, 0, 0] x hs) v hp hu (ix4 b c y w)
      = pad ⟨4, ![B, C', H', W']⟩ ![0, 0, p, q] hi ![0, 0, 0, 0] x v hp' hu (ix4 b c' y w) := by
  by_cases hy : p ≤ y.val ∧ y.val - p < H
  · by_cases hw : q ≤ w.val ∧ w.val - q < W
    · -- inside the border on both axes: both sides are the array's entry
      rw [pad_apply_of_inside ![0, 0, p, q] hi ![0, 0, 0, 0] _ v hp hu (ix4 b c y w)
            (ix4 b c ⟨y.val - p, hy.2⟩ ⟨w.val - q, hw.2⟩) (fun a => match a with
          | ⟨0, _⟩ => by show b.val = 0 + b.val * (0 + 1); omega
          | ⟨1, _⟩ => by show c.val = 0 + c.val * (0 + 1); omega
          | ⟨2, _⟩ => by show y.val = p + (y.val - p) * (0 + 1); omega
          | ⟨3, _⟩ => by show w.val = q + (w.val - q) * (0 + 1); omega),
        pad_apply_of_inside ![0, 0, p, q] hi ![0, 0, 0, 0] x v hp' hu (ix4 b c' y w)
            (ix4 b c' ⟨y.val - p, hy.2⟩ ⟨w.val - q, hw.2⟩) (fun a => match a with
          | ⟨0, _⟩ => by show b.val = 0 + b.val * (0 + 1); omega
          | ⟨1, _⟩ => by show c'.val = 0 + c'.val * (0 + 1); omega
          | ⟨2, _⟩ => by show y.val = p + (y.val - p) * (0 + 1); omega
          | ⟨3, _⟩ => by show w.val = q + (w.val - q) * (0 + 1); omega)]
      exact extractStridedSlice_apply ![0, off, 0, 0] x hs _ _ (fun a => match a with
          | ⟨0, _⟩ => by show b.val = 0 + b.val; omega
          | ⟨1, _⟩ => by show c'.val = off + c.val; omega
          | ⟨2, _⟩ => by show y.val - p = 0 + (y.val - p); omega
          | ⟨3, _⟩ => by show w.val - q = 0 + (w.val - q); omega)
    · -- on the border of the last axis: both sides are the padding value
      exact (pad_apply_of_not_inside (s := ⟨4, ![B, C, H, W]⟩) ![0, 0, p, q] hi ![0, 0, 0, 0] _ v hp hu (ix4 b c y w)
          (⟨3, Nat.lt_succ_self 3⟩ : Fin 4) (by
            intro h
            have h1 : q ≤ w.val := h.1
            have h3 : (w.val - q) / (0 + 1) < W := h.2.2
            exact hw ⟨h1, by simpa using h3⟩)).trans
        (pad_apply_of_not_inside (s := ⟨4, ![B, C', H, W]⟩) ![0, 0, p, q] hi ![0, 0, 0, 0] x v hp' hu (ix4 b c' y w)
          (⟨3, Nat.lt_succ_self 3⟩ : Fin 4) (by
            intro h
            have h1 : q ≤ w.val := h.1
            have h3 : (w.val - q) / (0 + 1) < W := h.2.2
            exact hw ⟨h1, by simpa using h3⟩)).symm
  · -- on the border of the third axis: both sides are the padding value
    exact (pad_apply_of_not_inside (s := ⟨4, ![B, C, H, W]⟩) ![0, 0, p, q] hi ![0, 0, 0, 0] _ v hp hu (ix4 b c y w)
        (⟨2, Nat.lt_succ_of_lt (Nat.lt_succ_self 2)⟩ : Fin 4) (by
          intro h
          have h1 : p ≤ y.val := h.1
          have h3 : (y.val - p) / (0 + 1) < H := h.2.2
          exact hy ⟨h1, by simpa using h3⟩)).trans
      (pad_apply_of_not_inside (s := ⟨4, ![B, C', H, W]⟩) ![0, 0, p, q] hi ![0, 0, 0, 0] x v hp' hu (ix4 b c' y w)
        (⟨2, Nat.lt_succ_of_lt (Nat.lt_succ_self 2)⟩ : Fin 4) (by
          intro h
          have h1 : p ≤ y.val := h.1
          have h3 : (y.val - p) / (0 + 1) < H := h.2.2
          exact hy ⟨h1, by simpa using h3⟩)).symm

end Idealize.ShloMosaic.PadChannel
-- ==== Proof.LibWindowStack.lean ====
/-
  Two readings at an index, for arrays built the way `jnp.stack` of shifted windows lowers.
  (1) Nine pieces of one shape, each of extent one along the joined axis, concatenated: the entry whose
      coordinate on that axis is `n` is piece `n`'s entry with the same coordinates elsewhere.
  (2) A window of a rank-four array [B, C, H', W'] cut at offsets (0, 0, i, j) to [B, C, H, W] and given a new unit axis
      in third place: its entry at (b, c, 0, h, w) is the array's entry at (b, c, h + i, w + j).
-/
import Idealize.ShloMosaic.Lib.ValueIdx
import Idealize.ShloMosaic.Lib.Pipeline.Value

namespace Idealize.ShloMosaic.WindowStack

open Idealize.ShloMosaic Idealize.ShloMosaic.ValueIdx

variable {α : Type}

/-- Nine unit-thick pieces joined along axis `a`, read at an index whose coordinate on `a` is `n`: piece `n`
    at the index with the same other coordinates. -/
theorem stack9_apply {t s₁ : Shape} (a : Fin t.rank) (x0 x1 x2 x3 x4 x5 x6 x7 x8 : s₁.Idx → α)
    (h : Shape.Concatenates (([⟨s₁, x0⟩, ⟨s₁, x1⟩, ⟨s₁, x2⟩, ⟨s₁, x3⟩, ⟨s₁, x4⟩, ⟨s₁, x5⟩, ⟨s₁, x6⟩, ⟨s₁, x7⟩, ⟨s₁, x8⟩] :
      List ((s : Shape) × (s.Idx → α))).map (·.1)) t a)
    (hr : s₁.rank = t.rank) (h1 : s₁.size (a.cast hr.symm) = 1) (j : t.Idx) (n : Fin 9) (hn : (j a).val = n.val)
    (i : s₁.Idx) (hi : ∀ b : Fin s₁.rank, b.cast hr ≠ a → (i b).val = (j (b.cast hr)).val) :
    concatenate t a [⟨s₁, x0⟩, ⟨s₁, x1⟩, ⟨s₁, x2⟩, ⟨s₁, x3⟩, ⟨s₁, x4⟩, ⟨s₁, x5⟩, ⟨s₁, x6⟩, ⟨s₁, x7⟩, ⟨s₁, x8⟩] h j
      = (![x0, x1, x2, x3, x4, x5, x6, x7, x8] n) i :=
  concatenate_ofFn_unit_apply a ![x0, x1, x2, x3, x4, x5, x6, x7, x8] h hr h1 j n hn i hi

/-- The window of `P` at offsets (0, 0, i, j) with a new unit axis in third place, read at (b, c, z, h, w), is `P` at
    (b, c, h + i, w + j). -/
theorem shifted_plane_apply {B C H W H' W' : Nat} (P : (⟨4, ![B, C, H', W']⟩ : Shape).Idx → α) (i j : Nat)
    (hs : (⟨4, ![B, C, H', W']⟩ : Shape).Slices ![0, 0, i, j] ⟨4, ![B, C, H, W]⟩)
    (hb : (⟨4, ![B, C, H, W]⟩ : Shape).BroadcastsInDim ⟨5, ![B, C, 1, H, W]⟩ (![0, 1, 3, 4] : Fin 4 → Fin 5))
    (b : Fin B) (c : Fin C) (z : Fin 1) (h : Fin H) (w : Fin W) (hh : h.val + i < H') (hw : w.val + j < W') :
    broadcastInDim ⟨5, ![B, C, 1, H, W]⟩ (![0, 1, 3, 4] : Fin 4 → Fin 5) hb
        (extractStridedSlice ⟨4, ![B, C, H, W]⟩ ![0, 0, i, j] P hs) (ix5 b c z h w)
      = P (ix4 b c ⟨h.val + i, hh⟩ ⟨w.val + j, hw⟩) := by
  refine (broadcastInDim_apply (![0, 1, 3, 4] : Fin 4 → Fin 5) hb _ (ix5 b c z h w) (ix4 b c h w) (fun a => match a with
    | ⟨0, _⟩ => by show b.val = if B = 1 then 0 else b.val; have := b.isLt; split_ifs <;> omega
    | ⟨1, _⟩ => by show c.val = if C = 1 then 0 else c.val; have := c.isLt; split_ifs <;> omega
    | ⟨2, _⟩ => by show h.val = if H = 1 then 0 else h.val; have := h.isLt; split_ifs <;> omega
    | ⟨3, _⟩ => by show w.val = if W = 1 then 0 else w.val; have := w.isLt; split_ifs <;> omega)).trans ?_
  exact extractStridedSlice_apply ![0, 0, i, j] P hs (ix4 b c h w) _ (fun a => match a with
    | ⟨0, _⟩ => by show b.val = 0 + b.val; omega
    | ⟨1, _⟩ => by show c.val = 0 + c.val; omega
    | ⟨2, _⟩ => by show h.val + i = i + h.val; omega
    | ⟨3, _⟩ => by show w.val + j = j + w.val; omega)

end Idealize.ShloMosaic.WindowStack
-- ==== Proof.RefWindow.lean ====
/-
  The reference's result, index by index, is the window sum `Cert.Window.G` of the bordered batch.

  The reference cuts the colour channels (0 – 2) and the alpha channel (3) out of the input, borders each with one row and
  one column of the border value on every side, cuts the nine windows at offsets (i, j), i, j ∈ {0, 1, 2}, out of
  each bordered array, lays them along a new axis in row-major order of (i, j), multiplies colour by alpha and sums
  the new axis from zero.
  Bordering commutes with cutting channels, so both bordered arrays are channel bands of ONE array, the whole input
  bordered (`bordered`): entry `k` of the colour stack at (b, c, h, w) is that array at (b, c, h + k / 3, w + k % 3)
  (`colour_stack`), entry `k` of the alpha stack the same at channel 3 (`alpha_stack`), their product is the tap
  at window position (k / 3, k % 3) (`summand_eq`), and the host's sum from zero over the nine entries is the taps
  added left to right from zero (`result_eq`).
-/
import proofs.«170923_j6313601925505_1_alg».proof.Proof.Gen.ReferenceIdeal.Read
import proofs.«170923_j6313601925505_1_alg».proof.Proof.Window
import proofs.«170923_j6313601925505_1_alg».proof.Proof.LibPadChannel
import proofs.«170923_j6313601925505_1_alg».proof.Proof.LibWindowStack

noncomputable section

namespace Cert.ReferenceIdeal.WindowValue

open Cert.ReferenceIdeal Cert.ReferenceIdeal.Read Idealize.ShloMosaic Idealize.ShloMosaic.TcCoe
open Idealize.ShloMosaic.ValueIdx Idealize.ShloMosaic.PadChannel Idealize.ShloMosaic.WindowStack Cert.Window
open Cert.ReferenceIdeal.Facts₀

variable (x0 : (⟨S16x4x512x512, .f32⟩ : BufTy).Contents (Elt Ideal))
variable (hp4 : S16x4x512x512.Pads (![0, 0, 1, 1] : Fin 4 → Nat) ![0, 0, 1, 1] ![0, 0, 0, 0] ⟨4, ![16, 4, 514, 514]⟩)

/-- The whole input with a border of one row and one column of the border value on every side of each picture. -/
def bordered : (⟨4, ![16, 4, 514, 514]⟩ : Shape).Idx → EReal :=
  pad ⟨4, ![16, 4, 514, 514]⟩ ![0, 0, 1, 1] ![0, 0, 1, 1] ![0, 0, 0, 0] x0 (val_main_call0_v0 (F := Ideal)) hp4 h_S_

/-- A window of the bordered colour channels at offsets (i, j), with its new unit axis, at (b, c, 0, h, w): the whole
    input bordered, at (b, c, h + i, w + j). -/
theorem colour_window (b : Fin 16) (c : Fin 3) (h w : Fin 512) (i j : Nat) (hi : i ≤ 2) (hj : j ≤ 2)
    (hs : S16x3x514x514.Slices ![0, 0, i, j] S16x3x512x512) :
    broadcastInDim S16x3x1x512x512 ![0, 1, 3, 4] bcast_S16x3x512x512_S16x3x1x512x512_0_1_3_4
        (extractStridedSlice S16x3x512x512 ![0, 0, i, j] (val_main_v2 (F := Ideal) x0) hs) (ix5 b c 0 h w)
      = bordered x0 hp4 (ix4 b ⟨c.val, by have := c.isLt; omega⟩ ⟨h.val + i, by have := h.isLt; omega⟩
          ⟨w.val + j, by have := w.isLt; omega⟩) := by
  refine (shifted_plane_apply (val_main_v2 (F := Ideal) x0) i j hs bcast_S16x3x512x512_S16x3x1x512x512_0_1_3_4 b c 0 h w
    (by have := h.isLt; omega) (by have := w.isLt; omega)).trans ?_
  unfold val_main_v2 val_main_v0 bordered
  exact pad_band_apply 0 1 1 ![0, 0, 1, 1] x0 (val_main_call0_v0 (F := Ideal)) h_S_
    slices_S16x4x512x512_S16x3x512x512_0_0_0_0 pads_S16x3x512x512_S16x3x514x514_000_000_110_110 hp4
    b c ⟨c.val, by have := c.isLt; omega⟩ (by simp) _ _

/-- The same for the bordered alpha channel: the whole input bordered, at channel 3. -/
theorem alpha_window (b : Fin 16) (h w : Fin 512) (i j : Nat) (hi : i ≤ 2) (hj : j ≤ 2)
    (hs : S16x1x514x514.Slices ![0, 0, i, j] S16x1x512x512) :
    broadcastInDim S16x1x1x512x512 ![0, 1, 3, 4] bcast_S16x1x512x512_S16x1x1x512x512_0_1_3_4
        (extractStridedSlice S16x1x512x512 ![0, 0, i, j] (val_main_v22 (F := Ideal) x0) hs) (ix5 b 0 0 h w)
      = bordered x0 hp4 (ix4 b ⟨3, by decide⟩ ⟨h.val + i, by have := h.isLt; omega⟩
          ⟨w.val + j, by have := w.isLt; omega⟩) := by
  refine (shifted_plane_apply (val_main_v22 (F := Ideal) x0) i j hs bcast_S16x1x512x512_S16x1x1x512x512_0_1_3_4 b 0 0 h w
    (by have := h.isLt; omega) (by have := w.isLt; omega)).trans ?_
  unfold val_main_v22 val_main_v1 bordered
  exact pad_band_apply 3 1 1 ![0, 0, 1, 1] x0 (val_main_call0_v0 (F := Ideal)) h_S_
    slices_S16x4x512x512_S16x1x512x512_0_3_0_0 pads_S16x1x512x512_S16x1x514x514_000_000_110_110 hp4
    b 0 ⟨3, by decide⟩ (by simp) _ _

/-- Entry `k` of the stack of colour windows. -/
theorem colour_stack (b : Fin 16) (c : Fin 3) (h w : Fin 512) (k : Fin 9) :
    val_main_v21 (F := Ideal) x0 (ix5 b c k h w)
      = bordered x0 hp4 (ix4 b ⟨c.val, by have := c.isLt; omega⟩ ⟨h.val + k.val / 3, by have := h.isLt; have := k.isLt; omega⟩
          ⟨w.val + k.val % 3, by have := w.isLt; omega⟩) := by
  unfold val_main_v21
  refine (stack9_apply (t := S16x3x9x512x512) (s₁ := S16x3x1x512x512) (2 : Fin 5)
    (val_main_v12 (F := Ideal) x0) (val_main_v13 (F := Ideal) x0) (val_main_v14 (F := Ideal) x0)
    (val_main_v15 (F := Ideal) x0) (val_main_v16 (F := Ideal) x0) (val_main_v17 (F := Ideal) x0)
    (val_main_v18 (F := Ideal) x0) (val_main_v19 (F := Ideal) x0) (val_main_v20 (F := Ideal) x0)
    _ rfl rfl (ix5 b c k h w) k rfl (ix5 b c 0 h w) (fun a ha => match a with
      | ⟨0, _⟩ => rfl
      | ⟨1, _⟩ => rfl
      | ⟨2, _⟩ => (ha (Fin.ext rfl)).elim
      | ⟨3, _⟩ => rfl
      | ⟨4, _⟩ => rfl)).trans ?_
  fin_cases k
  · exact colour_window x0 hp4 b c h w 0 0 (by omega) (by omega) slices_S16x3x514x514_S16x3x512x512_0_0_0_0
  · exact colour_window x0 hp4 b c h w 0 1 (by omega) (by omega) slices_S16x3x514x514_S16x3x512x512_0_0_0_1
  · exact colour_window x0 hp4 b c h w 0 2 (by omega) (by omega) slices_S16x3x514x514_S16x3x512x512_0_0_0_2
  · exact colour_window x0 hp4 b c h w 1 0 (by omega) (by omega) slices_S16x3x514x514_S16x3x512x512_0_0_1_0
  · exact colour_window x0 hp4 b c h w 1 1 (by omega) (by omega) slices_S16x3x514x514_S16x3x512x512_0_0_1_1
  · exact colour_window x0 hp4 b c h w 1 2 (by omega) (by omega) slices_S16x3x514x514_S16x3x512x512_0_0_1_2
  · exact colour_window x0 hp4 b c h w 2 0 (by omega) (by omega) slices_S16x3x514x514_S16x3x512x512_0_0_2_0
  · exact colour_window x0 hp4 b c h w 2 1 (by omega) (by omega) slices_S16x3x514x514_S16x3x512x512_0_0_2_1
  · exact colour_window x0 hp4 b c h w 2 2 (by omega) (by omega) slices_S16x3x514x514_S16x3x512x512_0_0_2_2

/-- Entry `k` of the stack of alpha windows. -/
theorem alpha_stack (b : Fin 16) (h w : Fin 512) (k : Fin 9) :
    val_main_v41 (F := Ideal) x0 (ix5 b 0 k h w)
      = bordered x0 hp4 (ix4 b ⟨3, by decide⟩ ⟨h.val + k.val / 3, by have := h.isLt; have := k.isLt; omega⟩
          ⟨w.val + k.val % 3, by have := w.isLt; omega⟩) := by
  unfold val_main_v41
  refine (stack9_apply (t := S16x1x9x512x512) (s₁ := S16x1x1x512x512) (2 : Fin 5)
    (val_main_v32 (F := Ideal) x0) (val_main_v33 (F := Ideal) x0) (val_main_v34 (F := Ideal) x0)
    (val_main_v35 (F := Ideal) x0) (val_main_v36 (F := Ideal) x0) (val_main_v37 (F := Ideal) x0)
    (val_main_v38 (F := Ideal) x0) (val_main_v39 (F := Ideal) x0) (val_main_v40 (F := Ideal) x0)
    _ rfl rfl (ix5 b 0 k h w) k rfl (ix5 b 0 0 h w) (fun a ha => match a with
      | ⟨0, _⟩ => rfl
      | ⟨1, _⟩ => rfl
      | ⟨2, _⟩ => (ha (Fin.ext rfl)).elim
      | ⟨3, _⟩ => rfl
      | ⟨4, _⟩ => rfl)).trans ?_
  fin_cases k
  · exact alpha_window x0 hp4 b h w 0 0 (by omega) (by omega) slices_S16x1x514x514_S16x1x512x512_0_0_0_0
  · exact alpha_window x0 hp4 b h w 0 1 (by omega) (by omega) slices_S16x1x514x514_S16x1x512x512_0_0_0_1
  · exact alpha_window x0 hp4 b h w 0 2 (by omega) (by omega) slices_S16x1x514x514_S16x1x512x512_0_0_0_2
  · exact alpha_window x0 hp4 b h w 1 0 (by omega) (by omega) slices_S16x1x514x514_S16x1x512x512_0_0_1_0
  · exact alpha_window x0 hp4 b h w 1 1 (by omega) (by omega) slices_S16x1x514x514_S16x1x512x512_0_0_1_1
  · exact alpha_window x0 hp4 b h w 1 2 (by omega) (by omega) slices_S16x1x514x514_S16x1x512x512_0_0_1_2
  · exact alpha_window x0 hp4 b h w 2 0 (by omega) (by omega) slices_S16x1x514x514_S16x1x512x512_0_0_2_0
  · exact alpha_window x0 hp4 b h w 2 1 (by omega) (by omega) slices_S16x1x514x514_S16x1x512x512_0_0_2_1
  · exact alpha_window x0 hp4 b h w 2 2 (by omega) (by omega) slices_S16x1x514x514_S16x1x512x512_0_0_2_2

/-- Entry `k` of the product of the two stacks is the tap at window position (k / 3, k % 3). -/
theorem summand_eq (b : Fin 16) (c : Fin 3) (h w : Fin 512) (k : Fin 9) :
    val_main_v43 (F := Ideal) x0 (idx_main_v44 (ix4 b c h w) k)
      = tap (bordered x0 hp4) b c h w (k.val / 3) (k.val % 3) (by have := k.isLt; omega) (by omega) := by
  have hJ : idx_main_v44 (ix4 b c h w) k = ix5 b c k h w := funext fun a => match a with
    | ⟨0, _⟩ => rfl
    | ⟨1, _⟩ => rfl
    | ⟨2, _⟩ => rfl
    | ⟨3, _⟩ => rfl
    | ⟨4, _⟩ => rfl
  have hJ' : idx_main_v42 (ix5 b c k h w) = ix5 b 0 k h w := funext fun a => match a with
    | ⟨0, _⟩ => rfl
    | ⟨1, _⟩ => rfl
    | ⟨2, _⟩ => rfl
    | ⟨3, _⟩ => rfl
    | ⟨4, _⟩ => rfl
  rw [val_main_v43_apply, val_main_v42_apply, hJ, hJ', colour_stack x0 hp4, alpha_stack x0 hp4]
  rfl

/-- THE REFERENCE'S RESULT is the window sum of the bordered input. -/
theorem result_eq : val_main_v44 (F := Ideal) x0 = G (bordered x0 hp4) := by
  funext o
  obtain ⟨b, c, h, w, rfl⟩ : ∃ (b : Fin 16) (c : Fin 3) (h w : Fin 512), o = ix4 b c h w :=
    ⟨o 0, o 1, o 2, o 3, eq_ix4 o⟩
  have hzero : (val_main_cst (F := Ideal)) (Shape.Idx.first h_S_) = 0 :=
    (Ideal.ofBits_zero_f32 : Ideal.ofBits .f32 0x00000000#32 = 0)
  rw [val_main_v44_apply, G_ix4, add_sum_nine, hzero]
  simp only [summand_eq x0 hp4]
  rfl

end Cert.ReferenceIdeal.WindowValue

end
-- ==== Proof.lean ====
/-
  Kernel and reference compute the same per-pixel filter ("involution") on a batch of RGBA pictures [16, 4, 512, 512]:
  for every picture b, colour channel c ∈ {0, 1, 2} and pixel (h, w),

      out[b, c, h, w] = Σ_{i, j ∈ {0, 1, 2}}  X̄[b, c, h + i, w + j] · X̄[b, 3, h + i, w + j],

  where X̄ is the input with one row and one column of zeros added on every side of each picture (so (h + i, w + j)
  ranges over the 3 × 3 neighbourhood of (h, w)) and channel 3 is the alpha channel.

  The kernel borders the whole input on the host and, one picture per grid point, adds the nine products one after
  another starting from zero (Proof/KernelArray.lean).  The reference cuts the colour channels and the alpha channel
  apart first, borders each, stacks the nine shifted windows of each along a new axis, multiplies, and sums that axis
  from zero (Proof/RefWindow.lean).  Bordering commutes with cutting channels (Proof/LibPadChannel.lean), and a sum of
  nine extended reals does not depend on how its terms are grouped (Proof/Window.lean), so both results are the one
  function `Cert.Window.G` of the bordered input.  No operation of the kernel is rewritten by the idealization, so
  `preserves` has nothing to state; the three frames are the generated runs.
-/
import proofs.«170923_j6313601925505_1_alg».proof.Defs
import proofs.«170923_j6313601925505_1_alg».proof.Proof.Gen.Kernel
import proofs.«170923_j6313601925505_1_alg».proof.Proof.Gen.Kernel.Skeleton
import proofs.«170923_j6313601925505_1_alg».proof.Proof.Gen.Kernel.Launch
import proofs.«170923_j6313601925505_1_alg».proof.Proof.Gen.Kernel.Points
import proofs.«170923_j6313601925505_1_alg».proof.Proof.Gen.Kernel.Frame
import proofs.«170923_j6313601925505_1_alg».proof.Proof.Gen.KernelIdeal
import proofs.«170923_j6313601925505_1_alg».proof.Proof.Gen.KernelIdeal.Skeleton
import proofs.«170923_j6313601925505_1_alg».proof.Proof.Gen.KernelIdeal.Launch
import proofs.«170923_j6313601925505_1_alg».proof.Proof.Gen.KernelIdeal.Points
import proofs.«170923_j6313601925505_1_alg».proof.Proof.Gen.KernelIdeal.Frame
import proofs.«170923_j6313601925505_1_alg».proof.Proof.Gen.ReferenceIdeal
import proofs.«170923_j6313601925505_1_alg».proof.Proof.Gen.Pre_finite_inputs
import proofs.«170923_j6313601925505_1_alg».proof.Proof.Gen.ReferenceIdeal.Run
import proofs.«170923_j6313601925505_1_alg».proof.Proof.Gen.ReferenceIdeal.Read
import proofs.«170923_j6313601925505_1_alg».proof.Proof.KernelArray
import proofs.«170923_j6313601925505_1_alg».proof.Proof.RefWindow
import Idealize.ShloMosaic.Adequacy
import Idealize.ShloMosaic.Init

noncomputable section

namespace Cert.Proof

open Idealize.ShloMosaic Idealize.ShloMosaic.TcCoe Idealize.SL.Sem

/-- The word-level kernel runs and leaves its input as it was. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its input as it was: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- Over the extended reals the kernel's result array and the reference's are both the window sum of the bordered
    input, from inputs that agree. -/
theorem algebraic : Cert.algebraic_KernelIdeal_ReferenceIdeal := by
  intro m ρ m' ρ' _ hagree
  refine ⟨_, Cert.KernelIdeal.WindowValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v44_eq, hagree c,
    Cert.ReferenceIdeal.WindowValue.result_eq _ Cert.KernelIdeal.Facts₀.pads_S16x4x512x512_S16x4x514x514_000_000_110_110]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
